-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x3 : Shape := ⟨3, ![32, 4096, 3]⟩
abbrev S1024x3 : Shape := ⟨2, ![1024, 3]⟩
abbrev S_ : Shape := ⟨0, ![]⟩

class Facts : Prop where
  bcast_S_S32x4096x3 : S_.BroadcastsInDim S32x4096x3 (![] : Fin 0 → Fin S32x4096x3.rank)
  reducesTo_S32x4096x3_S_d0_1_2 : S32x4096x3.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_

variable [Facts]

def fn {F : FTy → Type} [FloatOps F] (main_arg0 : FVec F S32x4096x3 .f32) (main_arg1 : FVec F S1024x3 .f32) : IVec S_ 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_c : IVec S_ 1 := constantI S_ 1 1#1
  let main_v3 : IVec S_ 1 := (fun x v => Host.reduce IntOp.andi x v reducesTo_S32x4096x3_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  main_v8
-- ==== Kernel.lean ====
abbrev S32x4096x3 : Shape := ⟨3, ![32, 4096, 3]⟩
abbrev S1024x3 : Shape := ⟨2, ![1024, 3]⟩
abbrev S32x3x4096 : Shape := ⟨3, ![32, 3, 4096]⟩
abbrev S3x1024 : Shape := ⟨2, ![3, 1024]⟩
abbrev S32x1024 : Shape := ⟨2, ![32, 1024]⟩
abbrev S32x3x256 : Shape := ⟨3, ![32, 3, 256]⟩
abbrev S3x128 : Shape := ⟨2, ![3, 128]⟩
abbrev S32x128 : Shape := ⟨2, ![32, 128]⟩
abbrev S32x1x256 : Shape := ⟨3, ![32, 1, 256]⟩
abbrev S32x256 : Shape := ⟨2, ![32, 256]⟩
abbrev S1x128 : Shape := ⟨2, ![1, 128]⟩
abbrev S128 : Shape := ⟨1, ![128]⟩
abbrev S1x128x1 : Shape := ⟨3, ![1, 128, 1]⟩
abbrev S32x128x256 : Shape := ⟨3, ![32, 128, 256]⟩

abbrev nBuf : Space → Nat
  | .hbm => 5
  | .vmem => 7
  | .smem => 0
  | _ => 0

abbrev bufTy : (tb : Table) → Fin (tcTables nBuf tb) → BufTy
  | .hbm, ⟨0, _⟩ => ⟨S32x4096x3, .f32⟩
  | .hbm, ⟨1, _⟩ => ⟨S1024x3, .f32⟩
  | .hbm, ⟨2, _⟩ => ⟨S32x3x4096, .f32⟩
  | .hbm, ⟨3, _⟩ => ⟨S3x1024, .f32⟩
  | .hbm, ⟨4, _⟩ => ⟨S32x1024, .f32⟩
  | .local _ .vmem, ⟨0, _⟩ => ⟨S32x3x256, .f32⟩
  | .local _ .vmem, ⟨1, _⟩ => ⟨S32x3x256, .f32⟩
  | .local _ .vmem, ⟨2, _⟩ => ⟨S3x128, .f32⟩
  | .local _ .vmem, ⟨3, _⟩ => ⟨S3x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_10 : BitVec 32 := 0#32
  let v50 : BitVec 1 := Scalar.cmpi .ne v49 c0_i32_10
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S32x4096x3_S32x3x4096_0_2_1 : S32x4096x3.Transposes [0, 2, 1] S32x3x4096
  transposes_S1024x3_S3x1024_1_0 : S1024x3.Transposes [1, 0] S3x1024
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x3x256_S32x3x256_0_0_0 : ∀ a, (![0, 0, 0] : Fin 3 → Nat) a + S32x3x256.size a ≤ S32x3x256.size a
  h_S32x3x256 : 0 < S32x3x256.numel
  shapeCasts_S32x3x256_S32x3x256 : S32x3x256.ShapeCasts S32x3x256
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S32x3x256_o0_0_0_S32x1x256 : S32x3x256.Slices ![0, 0, 0] S32x1x256
  shapeCasts_S32x1x256_S32x256 : S32x1x256.ShapeCasts S32x256
  slices_S3x128_o0_0_S1x128 : S3x128.Slices ![0, 0] S1x128
  shapeCasts_S1x128_S128 : S1x128.ShapeCasts S128
  shapeCasts_S32x256_S32x1x256 : S32x256.ShapeCasts S32x1x256
  shapeCasts_S128_S1x128x1 : S128.ShapeCasts S1x128x1
  broadcasts_S32x1x256_S32x128x256 : S32x1x256.Broadcasts S32x128x256
  broadcasts_S1x128x1_S32x128x256 : S1x128x1.Broadcasts S32x128x256
  slices_S32x3x256_o0_1_0_S32x1x256 : S32x3x256.Slices ![0, 1, 0] S32x1x256
  slices_S3x128_o1_0_S1x128 : S3x128.Slices ![1, 0] S1x128
  slices_S32x3x256_o0_2_0_S32x1x256 : S32x3x256.Slices ![0, 2, 0] S32x1x256
  slices_S3x128_o2_0_S1x128 : S3x128.Slices ![2, 0] S1x128
  reduces_S32x128x256_S32x128 : S32x128x256.Reduces [2] S32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3x256.size a ≤ S32x3x4096.size a
  hwx0_0 : ∀ i : grid0.Coords, EltTy.bits .f32 = 32 ∨ (Rect.block (s := S32x3x4096) S32x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x1024.size a
  hwx0_1 : ∀ i : grid0.Coords, EltTy.bits .f32 = 32 ∨ (Rect.block (s := S3x1024) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x1024.size a
  hwx0_2 : ∀ i : grid0.Coords, EltTy.bits .f32 = 32 ∨ (Rect.block (s := S32x1024) S32x128.size (cc0_transform_2 i) (hinb0_2 i)).WholeWords (EltTy.packing .f32)

variable [Facts₀]

abbrev win0_0 : Pipeline.Window sig grid0 :=
  Pipeline.Window.ofSpec (Memref.whole main_v0) S32x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x4096x3 : Shape := ⟨3, ![32, 4096, 3]⟩
abbrev S1024x3 : Shape := ⟨2, ![1024, 3]⟩
abbrev S_ : Shape := ⟨0, ![]⟩
abbrev S32x4096 : Shape := ⟨2, ![32, 4096]⟩
abbrev S1024 : Shape := ⟨1, ![1024]⟩
abbrev S1024x32x4096 : Shape := ⟨3, ![1024, 32, 4096]⟩
abbrev S32x1024x4096 : Shape := ⟨3, ![32, 1024, 4096]⟩
abbrev S32x1x4096 : Shape := ⟨3, ![32, 1, 4096]⟩
abbrev S1x1024x1 : Shape := ⟨3, ![1, 1024, 1]⟩
abbrev S32x1024 : Shape := ⟨2, ![32, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S1024x3, .f32⟩
  | .hbm, ⟨2, _⟩ => ⟨S32x4096x3, .f32⟩
  | .hbm, ⟨3, _⟩ => ⟨S_, .f32⟩
  | .hbm, ⟨4, _⟩ => ⟨S32x4096, .f32⟩
  | .hbm, ⟨5, _⟩ => ⟨S1024x3, .f32⟩
  | .hbm, ⟨6, _⟩ => ⟨S_, .f32⟩
  | .hbm, ⟨7, _⟩ => ⟨S1024, .f32⟩
  | .hbm, ⟨8, _⟩ => ⟨S1024x32x4096, .f32⟩
  | .hbm, ⟨9, _⟩ => ⟨S32x1024x4096, .f32⟩
  | .hbm, ⟨10, _⟩ => ⟨S32x1x4096, .f32⟩
  | .hbm, ⟨11, _⟩ => ⟨S_, .f32⟩
  | .hbm, ⟨12, _⟩ => ⟨S32x1024x4096, .f32⟩
  | .hbm, ⟨13, _⟩ => ⟨S32x1024x4096, .f32⟩
  | .hbm, ⟨14, _⟩ => ⟨S32x1024x4096, .f32⟩
  | .hbm, ⟨15, _⟩ => ⟨S32x1024x4096, .f32⟩
  | .hbm, ⟨16, _⟩ => ⟨S1x1024x1, .f32⟩
  | .hbm, ⟨17, _⟩ => ⟨S32x1024x4096, .f32⟩
  | .hbm, ⟨18, _⟩ => ⟨S32x1024x4096, .f32⟩
  | .hbm, ⟨19, _⟩ => ⟨S_, .f32⟩
  | .hbm, ⟨20, _⟩ => ⟨S32x1024x4096, .f32⟩
  | .hbm, ⟨21, _⟩ => ⟨S32x1024x4096, .f32⟩
  | .hbm, ⟨22, _⟩ => ⟨S32x1024x4096, .f32⟩
  | .hbm, ⟨23, _⟩ => ⟨S_, .f32⟩
  | .hbm, ⟨24, _⟩ => ⟨S32x1024, .f32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S32x4096x3_S32x4096_d2 : S32x4096x3.ReducesTo [2] S32x4096
  h_S_ : 0 < S_.numel
  reducesTo_S1024x3_S1024_d1 : S1024x3.ReducesTo [1] S1024
  transposes_S1024x32x4096_S32x1024x4096_1_0_2 : S1024x32x4096.Transposes [1, 0, 2] S32x1024x4096
  bcast_S32x4096_S32x1x4096_0_2 : S32x4096.BroadcastsInDim S32x1x4096 (![0, 2] : Fin 2 → Fin S32x1x4096.rank)
  bcast_S_S32x1024x4096 : S_.BroadcastsInDim S32x1024x4096 (![] : Fin 0 → Fin S32x1024x4096.rank)
  bcast_S32x1x4096_S32x1024x4096_0_1_2 : S32x1x4096.BroadcastsInDim S32x1024x4096 (![0, 1, 2] : Fin 3 → Fin S32x1024x4096.rank)
  bcast_S1024_S1x1024x1_1 : S1024.BroadcastsInDim S1x1024x1 (![1] : Fin 1 → Fin S1x1024x1.rank)
  bcast_S1x1024x1_S32x1024x4096_0_1_2 : S1x1024x1.BroadcastsInDim S32x1024x4096 (![0, 1, 2] : Fin 3 → Fin S32x1024x4096.rank)
  reducesTo_S32x1024x4096_S32x1024_d2 : S32x1024x4096.ReducesTo [2] S32x1024
  dot_S1024x3_S32x4096x3_S1024x32x4096_1_2_0_01_n_n_wf : DotDims.WF S1024x3 S32x4096x3 S1024x32x4096 [1] [2] [0] [0, 1] [] []

variable [Facts₀]

def dot_S1024x3_S32x4096x3_S1024x32x4096_1_2_0_01_n_n : DotDims S1024x3 S32x4096x3 S1024x32x4096 where
  lhsContracting := [1]
  rhsContracting := [2]
  lhsNonContracting := [0]
  rhsNonContracting := [0, 1]
  lhsBatch := []
  rhsBatch := []
  wf := dot_S1024x3_S32x4096x3_S1024x32x4096_1_2_0_01_n_n_wf

class Facts : Prop extends Facts₀ where

variable [Facts]
-- ==== Proof.CasePieces.lean ====
/-
  What each control case of the kernel body leaves behind, as values.

  The body adds one tile's lane sums into an accumulator it carries from point to point. At the first tile of
  a run (case A) it first clears the accumulator, so it leaves `step x0 x1 0`; at a later tile (cases B and C) it
  leaves `step x0 x1 acc` over what the tile before left; and at the last tile (case C) it also copies the
  accumulator, just updated, into the output block. Here `step x0 x1 acc` is the body's one arithmetic term: the
  accumulator plus, per (cloud, centre), the sum over the tile's 256 points of the Gaussian weights.
  Each statement reads the stores the run found back as one value: a buffer stored whole holds the last
  store's payload, and a load of a buffer just stored whole reads that payload.
-/
import proofs.«138815_j36773509989121_1_alg».proof.Proof.Gen.KernelIdeal.Frame
import Idealize.ShloMosaic.Lib.Pipeline.Value
import Idealize.ShloMosaic.Lib.Tactic

set_option maxRecDepth 16384

noncomputable section

namespace Cert.KernelIdeal.CasePieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One tile's update of the accumulator: the body's arithmetic over the points' block, the centres' block and
    the accumulator as the tile finds it. -/
abbrev step (x0 : Vec F S32x3x256 .f32) (x1 : Vec F S3x128 .f32) (acc : Vec F S32x128 .f32) : Vec F S32x128 .f32 :=
  k0_pay1 (k0_pay3 x0 x1 acc)

/-- The cleared accumulator. -/
abbrev cleared : Vec F S32x128 .f32 := k0_pay2

/-- First tile of a run: the accumulator is cleared, then updated. -/
theorem acc_first (c : Dev nD) (i : grid0.Coords) (arg2 : Memref sig .tc .vmem S32x3x256 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : cond0_0 i) (hc1 : ¬cond0_1 i)
    (x0 : Vec F S32x3x256 .f32) (x1 : Vec F S3x128 .f32) :
    sout0_A_0 c i arg2 harg2 arg3 harg3 arg4 harg4 arg5 harg5 hc0 hc1 x0 x1 = step x0 x1 cleared := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S32x128) hz2, View.readCov_unit_zero (S := S32x128) _ hz2]
  simp only [View.readAt_eq_ld, harg2.read_unread, harg3.read_unread, View.ld_unit_zero (S := S32x3x256) hz3,
    View.ld_unit_zero (S := S3x128) hz2]

/-- A middle tile: the accumulator is updated over what the tile before left. -/
theorem acc_middle (c : Dev nD) (i : grid0.Coords) (arg2 : Memref sig .tc .vmem S32x3x256 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : ¬cond0_0 i) (hc1 : ¬cond0_1 i)
    (x0 : Vec F S32x3x256 .f32) (x1 : Vec F S3x128 .f32) (xs0 : Vec F S32x128 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S32x3x256) hz3, View.ld_unit_zero (S := S3x128) hz2, View.ld_unit_zero (S := S32x128) hz2]

/-- The last tile: the accumulator is updated the same way, -/
theorem acc_last (c : Dev nD) (i : grid0.Coords) (arg2 : Memref sig .tc .vmem S32x3x256 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : ¬cond0_0 i) (hc1 : cond0_1 i)
    (x0 : Vec F S32x3x256 .f32) (x1 : Vec F S3x128 .f32) (xs0 : Vec F S32x128 .f32) :
    sout0_C_0 c i arg2 harg2 arg3 harg3 arg4 harg4 arg5 harg5 hc0 hc1 x0 x1 xs0 = step x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S32x3x256) hz3, View.ld_unit_zero (S := S3x128) hz2, View.ld_unit_zero (S := S32x128) hz2]

/-- and the output block receives the accumulator just updated. -/
theorem out_last (c : Dev nD) (i : grid0.Coords) (arg2 : Memref sig .tc .vmem S32x3x256 .f32) (harg2 : arg2.IsWhole) (arg3 : Memref sig .tc .vmem S3x128 .f32) (harg3 : arg3.IsWhole) (arg4 : Memref sig .tc .vmem S32x128 .f32) (harg4 : arg4.IsWhole) (arg5 : Memref sig .tc .vmem S32x128 .f32) (harg5 : arg5.IsWhole) (hc0 : ¬cond0_0 i) (hc1 : cond0_1 i)
    (x0 : Vec F S32x3x256 .f32) (x1 : Vec F S3x128 .f32) (xs0 : Vec F S32x128 .f32) :
    out0_C_2 c i arg2 harg2 arg3 harg3 arg4 harg4 arg5 harg5 hc0 hc1 x0 x1 xs0 = step x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readCov_unit_zero (S := S32x128) _ hz2, View.readAt_eq_ld, harg2.read_unread, harg3.read_unread,
    harg5.read_unread, View.ld_unit_zero (S := S32x3x256) hz3, View.ld_unit_zero (S := S3x128) hz2,
    View.ld_unit_zero (S := S32x128) hz2]

end Cert.KernelIdeal.CasePieces

end
-- ==== Proof.TileLayout.lean ====
/-
  The two re-layings the tile computation starts from, read at an index of the tile.

  A tile pairs every centre `q` of a block of 128 with every point `l` of a block of 256, in each cloud `b`.
  Coordinate `d` of the points is cut out of the points' block [32, 3, 256] as a [32, 1, 256] slab, flattened to
  [32, 256], given back its unit axis and spread over the 128 centres: at (b, q, l) it is the block at (b, d, l).
  Coordinate `d` of the centres is cut out of the centres' block [3, 128] as one row, flattened to [128], set on
  the middle axis of [1, 128, 1] and spread over clouds and points: at (b, q, l) it is the block at (d, q).
-/
import Idealize.ShloMosaic.Lib.Pipeline.Value
import Idealize.ShloMosaic.Lib.ValueIdx

noncomputable section

namespace Cert.TileLayout

open Idealize.ShloMosaic Idealize.ShloMosaic.ValueIdx

variable {α : Type}

/-- The tile, the points' block, the centres' block, and the shapes met on the way. -/
abbrev Tile : Shape := ⟨3, ![32, 128, 256]⟩
abbrev PBlk : Shape := ⟨3, ![32, 3, 256]⟩
abbrev CBlk : Shape := ⟨2, ![3, 128]⟩
abbrev PSlab : Shape := ⟨3, ![32, 1, 256]⟩
abbrev PFlat : Shape := ⟨2, ![32, 256]⟩
abbrev CRow : Shape := ⟨2, ![1, 128]⟩
abbrev CFlat : Shape := ⟨1, ![128]⟩
abbrev CMid : Shape := ⟨3, ![1, 128, 1]⟩

/-- Coordinate `d` of the points, spread over the centres, at (b, q, l): the points' block at (b, d, l). -/
theorem pointCoord_apply (X : PBlk.Idx → α) (off : Fin 3 → Nat) (d : Fin 3) (hoff : off = ![0, d.val, 0])
    (h0 : PBlk.ShapeCasts PBlk) (h1 : PBlk.Slices off PSlab) (h2 : PSlab.ShapeCasts PFlat)
    (h3 : PFlat.ShapeCasts PSlab) (h4 : PSlab.Broadcasts Tile) (b : Fin 32) (q : Fin 128) (l : Fin 256) :
    broadcastTo Tile (shapeCast PSlab (shapeCast PFlat (extractStridedSlice PSlab off (shapeCast PBlk X h0) h1) h2) h3) h4
        (ix3 b q l) = X (ix3 b d l) := by
  subst hoff
  have hb := b.isLt; have hl := l.isLt; have hd := d.isLt
  refine (broadcastTo_apply _ h4 (ix3 b q l) (ix3 b (0 : Fin 1) l) (fun a => by
    match a with
    | ⟨0, _⟩ => rfl
    | ⟨1, _⟩ => rfl
    | ⟨2, _⟩ => rfl)).trans ?_
  refine (shapeCast_apply _ h3 (ix3 b (0 : Fin 1) l) (ix2 b l) (by
    rw [Shape.rowMajor_val_two, Shape.rowMajor_val_three]
    show b.val * 256 + l.val = (b.val * 1 + 0) * 256 + l.val
    omega)).trans ?_
  refine (shapeCast_apply _ h2 (ix2 b l) (ix3 b (0 : Fin 1) l) (by
    rw [Shape.rowMajor_val_two, Shape.rowMajor_val_three]
    show (b.val * 1 + 0) * 256 + l.val = b.val * 256 + l.val
    omega)).trans ?_
  refine (extractStridedSlice_apply _ _ h1 (ix3 b (0 : Fin 1) l) (ix3 b d l) (fun a => by
    match a with
    | ⟨0, _⟩ => show b.val = 0 + b.val; omega
    | ⟨1, _⟩ => show d.val = d.val + 0; omega
    | ⟨2, _⟩ => show l.val = 0 + l.val; omega)).trans ?_
  rw [shapeCast_self]

/-- Coordinate `d` of the centres, spread over clouds and points, at (b, q, l): the centres' block at (d, q). -/
theorem centreCoord_apply (S : CBlk.Idx → α) (off : Fin 2 → Nat) (d : Fin 3) (hoff : off = ![d.val, 0])
    (h0 : CBlk.ShapeCasts CBlk) (h1 : CBlk.Slices off CRow) (h2 : CRow.ShapeCasts CFlat)
    (h3 : CFlat.ShapeCasts CMid) (h4 : CMid.Broadcasts Tile) (b : Fin 32) (q : Fin 128) (l : Fin 256) :
    broadcastTo Tile (shapeCast CMid (shapeCast CFlat (extractStridedSlice CRow off (shapeCast CBlk S h0) h1) h2) h3) h4
        (ix3 b q l) = S (ix2 d q) := by
  subst hoff
  have hq := q.isLt; have hd := d.isLt
  refine (broadcastTo_apply _ h4 (ix3 b q l) (ix3 (0 : Fin 1) q (0 : Fin 1)) (fun a => by
    match a with
    | ⟨0, _⟩ => rfl
    | ⟨1, _⟩ => rfl
    | ⟨2, _⟩ => rfl)).trans ?_
  refine (shapeCast_apply _ h3 (ix3 (0 : Fin 1) q (0 : Fin 1)) (ix1 q) (by
    rw [Shape.rowMajor_val_one, Shape.rowMajor_val_three]
    show q.val = (0 * 128 + q.val) * 1 + 0
    omega)).trans ?_
  refine (shapeCast_apply _ h2 (ix1 q) (ix2 (0 : Fin 1) q) (by
    rw [Shape.rowMajor_val_one, Shape.rowMajor_val_two]
    show 0 * 128 + q.val = q.val
    omega)).trans ?_
  refine (extractStridedSlice_apply _ _ h1 (ix2 (0 : Fin 1) q) (ix2 d q) (fun a => by
    match a with
    | ⟨0, _⟩ => show d.val = d.val + 0; omega
    | ⟨1, _⟩ => show q.val = 0 + q.val; omega)).trans ?_
  rw [shapeCast_self]

end Cert.TileLayout

end
-- ==== Proof.GaussSum.lean ====
/-
  The value both programs compute, and the two laws that join their arrangements.

  For a point cloud `x` (32 clouds of 4096 points in three coordinates) and 1024 centres `s`, the result at
  (cloud `b`, centre `q`) is the sum over the cloud's points `n` of the Gaussian weight
  `exp (-1/2 · |x b n − s q|²)`, the squared distance taken coordinate by coordinate and added left to right.

  * `sqDist_expand`: over REAL entries the squared distance is `|x|² − 2·(s·x) + |s|²`, each of the three
    parts a sum over the coordinates from a zero start. This is where finiteness is used: distributing a product
    over a difference fails at an infinity of the extended reals.
  * `sum_tiles`: a sum over the 4096 points is the sum over 16 consecutive tiles of 256 of each tile's sum; this
    holds in any commutative monoid, the extended reals included, and needs no finiteness.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.GaussSum

open Idealize.ShloMosaic Idealize.ShloMosaic.ValueIdx

/-- The clouds, the centres and the result, as literal shapes. -/
abbrev SX : Shape := ⟨3, ![32, 4096, 3]⟩
abbrev SS : Shape := ⟨2, ![1024, 3]⟩
abbrev SO : Shape := ⟨2, ![32, 1024]⟩

/-- The scale `-1/2` as the float pattern both programs spell; its value is never needed. -/
abbrev negHalf : EReal := Ideal.ofBits .f32 0xBF000000#32

/-- The squared distance between point `n` of cloud `b` and centre `q`: the three squared coordinate
    differences, added left to right. -/
def sqDist (x : SX.Idx → EReal) (s : SS.Idx → EReal) (b : Fin 32) (q : Fin 1024) (n : Fin 4096) : EReal :=
  (x (ix3 b n 0) - s (ix2 q 0)) * (x (ix3 b n 0) - s (ix2 q 0))
    + (x (ix3 b n 1) - s (ix2 q 1)) * (x (ix3 b n 1) - s (ix2 q 1))
    + (x (ix3 b n 2) - s (ix2 q 2)) * (x (ix3 b n 2) - s (ix2 q 2))

/-- The Gaussian weight of point `n` of cloud `b` at centre `q`. -/
def weight (x : SX.Idx → EReal) (s : SS.Idx → EReal) (b : Fin 32) (q : Fin 1024) (n : Fin 4096) : EReal :=
  Ideal.exp (negHalf * sqDist x s b q n)

/-- THE RESULT: at (cloud, centre) the sum of the weights of the cloud's points. -/
def G (x : SX.Idx → EReal) (s : SS.Idx → EReal) : SO.Idx → EReal :=
  fun i => ∑ n : Fin 4096, weight x s (i 0) (i 1) n

/-- `2.0` denotes the real number two. -/
theorem ofBits_two : Ideal.ofBits .f32 0x40000000#32 = ((2 : ℝ) : EReal) := by
  simp [Ideal.ofBits, Ideal.ieee, -EReal.coe_mul]; norm_num

/-- Over real entries the squared distance is the expanded square: `|x|² − 2·(s·x) + |s|²`, the three sums each
    started from zero and the cross term's factors in the order centre, point. -/
theorem sqDist_expand (a0 a1 a2 c0 c1 c2 : ℝ) :
    ((a0 : EReal) - c0) * ((a0 : EReal) - c0) + ((a1 : EReal) - c1) * ((a1 : EReal) - c1)
        + ((a2 : EReal) - c2) * ((a2 : EReal) - c2)
      = ((0 : EReal) + ((a0 : EReal) * a0 + (a1 : EReal) * a1 + (a2 : EReal) * a2))
          - ((2 : ℝ) : EReal) * ((c0 : EReal) * a0 + (c1 : EReal) * a1 + (c2 : EReal) * a2)
          + ((0 : EReal) + ((c0 : EReal) * c0 + (c1 : EReal) * c1 + (c2 : EReal) * c2)) := by
  rw [← EReal.coe_zero]
  norm_cast
  ring

/-- Every entry of an array is a real number: neither infinity. -/
def AllReal {S : Shape} (x : S.Idx → EReal) : Prop := ∀ i, ∃ r : ℝ, x i = (r : EReal)

/-- For clouds and centres with real entries, the squared distance in the expanded arrangement: the cloud
    point's squared norm, minus twice the inner product (centre first), plus the centre's squared norm, each
    sum over the three coordinates started from zero and the `2.0` left as its float pattern. -/
theorem sqDist_eq_expanded (x : SX.Idx → EReal) (s : SS.Idx → EReal) (hx : AllReal x) (hs : AllReal s)
    (b : Fin 32) (q : Fin 1024) (n : Fin 4096) :
    sqDist x s b q n
      = ((0 : EReal) + ∑ d : Fin 3, x (ix3 b n d) * x (ix3 b n d))
          - Ideal.ofBits .f32 0x40000000#32 * (∑ d : Fin 3, s (ix2 q d) * x (ix3 b n d))
          + ((0 : EReal) + ∑ d : Fin 3, s (ix2 q d) * s (ix2 q d)) := by
  obtain ⟨a0, h0⟩ := hx (ix3 b n 0)
  obtain ⟨a1, h1⟩ := hx (ix3 b n 1)
  obtain ⟨a2, h2⟩ := hx (ix3 b n 2)
  obtain ⟨c0, k0⟩ := hs (ix2 q 0)
  obtain ⟨c1, k1⟩ := hs (ix2 q 1)
  obtain ⟨c2, k2⟩ := hs (ix2 q 2)
  unfold sqDist
  rw [Fin.sum_univ_three, Fin.sum_univ_three, Fin.sum_univ_three, ofBits_two, h0, h1, h2, k0, k1, k2]
  exact sqDist_expand a0 a1 a2 c0 c1 c2

/-- A sum over 4096 points is the sum over 16 consecutive tiles of 256 points of each tile's sum. -/
theorem sum_tiles {M : Type*} [AddCommMonoid M] (f : Fin 4096 → M) :
    ∑ n : Fin 4096, f n
      = ∑ j : Fin 16, ∑ l : Fin 256, f ⟨256 * j.val + l.val, by have := j.isLt; have := l.isLt; omega⟩ := by
  rw [← Fintype.sum_prod_type' (fun (j : Fin 16) (l : Fin 256) =>
    f ⟨256 * j.val + l.val, by have := j.isLt; have := l.isLt; omega⟩)]
  refine (Fintype.sum_equiv (finProdFinEquiv (m := 16) (n := 256)) _ _ ?_).symm
  rintro ⟨j, l⟩
  refine congrArg f (Fin.ext ?_)
  show 256 * j.val + l.val = l.val + 256 * j.val
  omega

end Cert.GaussSum

end
-- ==== Proof.TileStep.lean ====
/-
  One tile's update of the accumulator, read at a (cloud, centre) pair over the extended reals.

  The body's arithmetic spreads the three coordinates of the tile's 256 points and of its 128 centres over the
  tile, takes the three squared differences, adds them left to right, scales by `-1/2`, exponentiates, sums over
  the 256 points (a sum over the tile's last axis), and adds the result to the accumulator. So at (b, q) the updated accumulator is the old
  one at (b, q) plus the sum over the tile's points `l` of `exp (-1/2 · |X b l − S q|²)`.
-/
import proofs.«138815_j36773509989121_1_alg».proof.Proof.CasePieces
import proofs.«138815_j36773509989121_1_alg».proof.Proof.TileLayout
import proofs.«138815_j36773509989121_1_alg».proof.Proof.GaussSum
import Idealize.ShloMosaic.PureOps.Ideal.Laws

noncomputable section

namespace Cert.KernelIdeal.TileStep

open Cert.KernelIdeal Cert.KernelIdeal.Gen Cert.KernelIdeal.CasePieces Cert.TileLayout Cert.GaussSum
open Idealize.ShloMosaic Idealize.ShloMosaic.ValueIdx

/-- The squared distance between point `l` of cloud `b` and centre `q`, inside one tile: over the points' block
    `X` [32, 3, 256] and the centres' block `S` [3, 128], both laid out coordinate-major. -/
def tileSq (X : PBlk.Idx → EReal) (S : CBlk.Idx → EReal) (b : Fin 32) (q : Fin 128) (l : Fin 256) : EReal :=
  (X (ix3 b 0 l) - S (ix2 0 q)) * (X (ix3 b 0 l) - S (ix2 0 q))
    + (X (ix3 b 1 l) - S (ix2 1 q)) * (X (ix3 b 1 l) - S (ix2 1 q))
    + (X (ix3 b 2 l) - S (ix2 2 q)) * (X (ix3 b 2 l) - S (ix2 2 q))

/-- The lane sum's index: the tile index (b, q) with the point `l` put back on the last axis. -/
theorem lift_lane (b : Fin 32) (q : Fin 128) (l : Fin 256) :
    reduces_S32x128x256_S32x128.lift (ix2 b q) l = ix3 b q l :=
  funext fun a => Fin.ext (by
    match a with
    | ⟨0, _⟩ => rfl
    | ⟨1, _⟩ => rfl
    | ⟨2, _⟩ => rfl)

/-- The updated accumulator at (b, q): the old one there plus the tile's sum of Gaussian weights. -/
theorem step_apply (x0 : Vec Ideal S32x3x256 .f32) (x1 : Vec Ideal S3x128 .f32) (acc : Vec Ideal S32x128 .f32)
    (b : Fin 32) (q : Fin 128) :
    step x0 x1 acc (ix2 b q) = acc (ix2 b q) + ∑ l : Fin 256, Ideal.exp (negHalf * tileSq x0 x1 b q l) := by
  unfold step k0_pay1 k0_pay3
  dsimp only
  refine (congrFun (shapeCast_self _ _) (ix2 b q)).trans ?_
  refine congrArg (acc (ix2 b q) + ·) ?_
  refine (Ideal.multiReduction_add_single _ 0x00000000#32 reduces_S32x128x256_S32x128 _ _ (ix2 b q)).trans ?_
  refine Finset.sum_congr rfl fun l _ => ?_
  rw [lift_lane b q l]
  have e0 := pointCoord_apply x0 ![0, 0, 0] 0 rfl shapeCasts_S32x3x256_S32x3x256 slices_S32x3x256_o0_0_0_S32x1x256
    shapeCasts_S32x1x256_S32x256 shapeCasts_S32x256_S32x1x256 broadcasts_S32x1x256_S32x128x256 b q l
  have e1 := pointCoord_apply x0 ![0, 1, 0] 1 rfl shapeCasts_S32x3x256_S32x3x256 slices_S32x3x256_o0_1_0_S32x1x256
    shapeCasts_S32x1x256_S32x256 shapeCasts_S32x256_S32x1x256 broadcasts_S32x1x256_S32x128x256 b q l
  have e2 := pointCoord_apply x0 ![0, 2, 0] 2 rfl shapeCasts_S32x3x256_S32x3x256 slices_S32x3x256_o0_2_0_S32x1x256
    shapeCasts_S32x1x256_S32x256 shapeCasts_S32x256_S32x1x256 broadcasts_S32x1x256_S32x128x256 b q l
  have f0 := centreCoord_apply x1 ![0, 0] 0 rfl shapeCasts_S3x128_S3x128 slices_S3x128_o0_0_S1x128
    shapeCasts_S1x128_S128 shapeCasts_S128_S1x128x1 broadcasts_S1x128x1_S32x128x256 b q l
  have f1 := centreCoord_apply x1 ![1, 0] 1 rfl shapeCasts_S3x128_S3x128 slices_S3x128_o1_0_S1x128
    shapeCasts_S1x128_S128 shapeCasts_S128_S1x128x1 broadcasts_S1x128x1_S32x128x256 b q l
  have f2 := centreCoord_apply x1 ![2, 0] 2 rfl shapeCasts_S3x128_S3x128 slices_S3x128_o2_0_S1x128
    shapeCasts_S1x128_S128 shapeCasts_S128_S1x128x1 broadcasts_S1x128x1_S32x128x256 b q l
  show Ideal.exp (Ideal.ofBits .f32 0xBF000000#32 * (((_ - _) * (_ - _) + (_ - _) * (_ - _)) + (_ - _) * (_ - _))) = _
  unfold tileSq
  rw [e0, e1, e2, f0, f1, f2]

end Cert.KernelIdeal.TileStep

end
-- ==== Proof.InputBlocks.lean ====
/-
  The blocks the tiles read, as entries of the argument arrays.

  Before the tiles run, the clouds are laid out coordinate-major ([32, 3, 4096]: cloud, coordinate, point) and the
  centres likewise ([3, 1024]: coordinate, centre). Tile `t` of the 8 × 16 grid works on centres
  `128·(t / 16) … 128·(t / 16) + 127` and points `256·(t % 16) … 256·(t % 16) + 255`. So the points' block at
  (b, d, l) is the clouds at (b, 256·(t % 16) + l, d), and the centres' block at (d, q) is the centres at
  (128·(t / 16) + q, d).
-/
import proofs.«138815_j36773509989121_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.InputBlocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- Which block of each array a tile works on: the points' block moves with `t % 16`, the centres' block and the
    result's block with `t / 16`. -/
theorem pointsIdx : ∀ t : Fin cfg0.N, win0_0.index t 0 = 0 ∧ win0_0.index t 1 = 0 ∧ win0_0.index t 2 = t.val % 16 :=
  (by decide +kernel : ∀ t : Fin grid0.N, win0_0.index t 0 = 0 ∧ win0_0.index t 1 = 0 ∧ win0_0.index t 2 = t.val % 16)
theorem centresIdx : ∀ t : Fin cfg0.N, win0_1.index t 0 = 0 ∧ win0_1.index t 1 = t.val / 16 :=
  (by decide +kernel : ∀ t : Fin grid0.N, win0_1.index t 0 = 0 ∧ win0_1.index t 1 = t.val / 16)
theorem resultIdx : ∀ t : Fin cfg0.N, win0_2.index t 0 = 0 ∧ win0_2.index t 1 = t.val / 16 :=
  (by decide +kernel : ∀ t : Fin grid0.N, win0_2.index t 0 = 0 ∧ win0_2.index t 1 = t.val / 16)

/-- The clouds as the tiles find them: coordinate-major. -/
theorem V_points (c : Dev nD) :
    (V m c main_v0 : S32x3x4096.Idx → Elt F .f32)
      = transpose S32x3x4096 [0, 2, 1] (m ((c : Thread nD τ).loc main_arg0)) transposes_S32x4096x3_S32x3x4096_0_2_1 := by
  dsimp only [V, hostOps0]; after_results

/-- The centres as the tiles find them: coordinate-major. -/
theorem V_centres (c : Dev nD) :
    (V m c main_v1 : S3x1024.Idx → Elt F .f32)
      = transpose S3x1024 [1, 0] (m ((c : Thread nD τ).loc main_arg1)) transposes_S1024x3_S3x1024_1_0 := by
  dsimp only [V, hostOps0]; after_results

/-- The points' block and the centres' block of tile `t`, at their literal shapes. -/
abbrev pblk (c : Dev nD) (t : Fin cfg0.N) : Vec F S32x3x256 .f32 := iblk m c 0 t
abbrev cblk (c : Dev nD) (t : Fin cfg0.N) : Vec F S3x128 .f32 := iblk m c 1 t

/-- The points' block at (b, d, l) is coordinate `d` of point `256·(t % 16) + l` of cloud `b`. -/
theorem pblk_apply (c : Dev nD) (t : Fin cfg0.N) (b : Fin 32) (d : Fin 3) (l : Fin 256) (n : Fin 4096)
    (hn : n.val = 256 * (t.val % 16) + l.val) :
    pblk m c t (ix3 b d l) = m ((c : Thread nD τ).loc main_arg0) (ix3 b n d) := by
  unfold pblk iblk
  rw [View.read_apply]
  show V m c main_v0 (((cfg0.win 0).blk t).view.emb (ix3 b d l)) = _
  rw [V_points]
  obtain ⟨i0, i1, i2⟩ := pointsIdx t
  exact transpose_apply [0, 2, 1] _ transposes_S32x4096x3_S32x3x4096_0_2_1 _ (ix3 b n d) (fun a => by
    match a with
    | ⟨0, _⟩ => show b.val = win0_0.index t 0 * 32 + 1 * b.val; rw [i0]; omega
    | ⟨1, _⟩ => show d.val = win0_0.index t 1 * 3 + 1 * d.val; rw [i1]; omega
    | ⟨2, _⟩ => show n.val = win0_0.index t 2 * 256 + 1 * l.val; rw [i2, hn]; omega)

/-- The centres' block at (d, q) is coordinate `d` of centre `128·(t / 16) + q`. -/
theorem cblk_apply (c : Dev nD) (t : Fin cfg0.N) (d : Fin 3) (q : Fin 128) (r : Fin 1024)
    (hr : r.val = 128 * (t.val / 16) + q.val) :
    cblk m c t (ix2 d q) = m ((c : Thread nD τ).loc main_arg1) (ix2 r d) := by
  unfold cblk iblk
  rw [View.read_apply]
  show V m c main_v1 (((cfg0.win 1).blk t).view.emb (ix2 d q)) = _
  rw [V_centres]
  obtain ⟨i0, i1⟩ := centresIdx t
  exact transpose_apply [1, 0] _ transposes_S1024x3_S3x1024_1_0 _ (ix2 r d) (fun a => by
    match a with
    | ⟨0, _⟩ => show d.val = win0_1.index t 0 * 3 + 1 * d.val; rw [i0]; omega
    | ⟨1, _⟩ => show r.val = win0_1.index t 1 * 128 + 1 * q.val; rw [i1, hr]; omega)

end Cert.KernelIdeal.InputBlocks

end
-- ==== Proof.KernelValue.lean ====
/-
  The kernel's result array is the Gaussian sum.

  The 128 tiles run in 8 runs of 16: run `k` holds the centres `128·k … 128·k + 127` fixed and walks the 16
  blocks of 256 points. Each tile adds, per (cloud, centre), its 256 points' Gaussian weights to an accumulator
  cleared at the run's first tile; the run's last tile writes the accumulator out as block `k` of the result.
  So the accumulator after tile `j` of a run is the sum of the addends of tiles `0 … j` (a fold, unrolled once,
  never tile by tile), what is written out is the sum over all 16 tiles, that is over all 4096 points
  (`sum_tiles`), and the 8 blocks written out cover the result array.
-/
import proofs.«138815_j36773509989121_1_alg».proof.Proof.Gen.KernelIdeal.Value
import proofs.«138815_j36773509989121_1_alg».proof.Proof.CasePieces
import proofs.«138815_j36773509989121_1_alg».proof.Proof.TileStep
import proofs.«138815_j36773509989121_1_alg».proof.Proof.InputBlocks
import proofs.«138815_j36773509989121_1_alg».proof.Proof.GaussSum

noncomputable section

namespace Cert.KernelIdeal.KernelValue

open Cert.KernelIdeal Cert.KernelIdeal.Gen Cert.KernelIdeal.Value Cert.KernelIdeal.CasePieces
open Cert.KernelIdeal.TileStep Cert.KernelIdeal.InputBlocks Cert.GaussSum Cert.TileLayout
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The clouds and the centres as launched. -/
abbrev clouds (c : Dev nD) : SX.Idx → EReal := m ((c : Thread nD τ).loc main_arg0)
abbrev centres (c : Dev nD) : SS.Idx → EReal := m ((c : Thread nD τ).loc main_arg1)

theorem N128 : cfg0.N = 128 := N_0

/-- Equal coordinates give equal weights. -/
theorem weight_congr (x : SX.Idx → EReal) (s : SS.Idx → EReal) {b b' : Fin 32} {r r' : Fin 1024} {n n' : Fin 4096}
    (hb : b.val = b'.val) (hr : r.val = r'.val) (hn : n.val = n'.val) : weight x s b r n = weight x s b' r' n' := by
  obtain rfl := Fin.ext hb; obtain rfl := Fin.ext hr; obtain rfl := Fin.ext hn; rfl

/-- Inside tile `t` the squared distance between the block's point `l` and centre `q` is the arrays' squared
    distance between point `256·(t % 16) + l` and centre `128·(t / 16) + q`. -/
theorem tileSq_eq (c : Dev nD) (t : Fin cfg0.N) (b : Fin 32) (q : Fin 128) (l : Fin 256) (r : Fin 1024) (n : Fin 4096)
    (hr : r.val = 128 * (t.val / 16) + q.val) (hn : n.val = 256 * (t.val % 16) + l.val) :
    tileSq (pblk m c t) (cblk m c t) b q l = sqDist (clouds m c) (centres m c) b r n := by
  unfold tileSq sqDist
  rw [pblk_apply m c t b 0 l n hn, pblk_apply m c t b 1 l n hn, pblk_apply m c t b 2 l n hn,
    cblk_apply m c t 0 q r hr, cblk_apply m c t 1 q r hr, cblk_apply m c t 2 q r hr]

/-- The weights of the 256 points of block `j` (taken mod 16) at centre `q` of block `k` (taken mod 8), summed. -/
def tileSum (c : Dev nD) (k j : ℕ) (b : Fin 32) (q : Fin 128) : EReal :=
  ∑ l : Fin 256, weight (clouds m c) (centres m c) b
    ⟨128 * (k % 8) + q.val, by have := q.isLt; have := Nat.mod_lt k (by decide : 0 < 8); omega⟩
    ⟨256 * (j % 16) + l.val, by have := l.isLt; have := Nat.mod_lt j (by decide : 0 < 16); omega⟩

/-- What tile `n` adds to the accumulator. -/
def addend (c : Dev nD) (n : ℕ) : S32x128.Idx → EReal := fun i => tileSum m c (n / 16) n (i 0) (i 1)

/-- The cleared accumulator is zero. -/
theorem cleared_apply (i : S32x128.Idx) : (cleared (F := Ideal)) i = 0 := by
  unfold cleared k0_pay2
  refine (congrFun (shapeCast_self _ _) i).trans ?_
  exact Ideal.ofBits_zero_f32

/-- One tile's update adds the tile's addend. -/
theorem tile_step (c : Dev nD) (t : Fin cfg0.N) (acc : Vec Ideal S32x128 .f32) (i : S32x128.Idx) :
    step (pblk m c t) (cblk m c t) acc i = acc i + addend m c t.val i := by
  have hN : t.val < 128 := lt_of_lt_of_eq t.isLt (N128)
  obtain ⟨b, q, rfl⟩ : ∃ (b : Fin 32) (q : Fin 128), i = ix2 b q := ⟨i 0, i 1, eq_ix2 i⟩
  refine (step_apply (pblk m c t) (cblk m c t) acc b q).trans ?_
  refine congrArg (acc (ix2 b q) + ·) ?_
  unfold addend tileSum
  refine Finset.sum_congr rfl fun l _ => ?_
  unfold weight
  refine congrArg (fun z => Ideal.exp (negHalf * z)) ?_
  have hq := q.isLt; have hl := l.isLt
  exact tileSq_eq m c t b q l _ _ (by show 128 * (t.val / 16 % 8) + q.val = 128 * (t.val / 16) + q.val; omega)
    (by show 256 * (t.val % 16) + l.val = 256 * (t.val % 16) + l.val; rfl)

/-- What a tile leaves in the accumulator, whichever of the three cases it is: the update, over the cleared
    accumulator at a run's first tile and over what the tile before left otherwise. -/
theorem scAt_eq (c : Dev nD) (n : ℕ) (hb : n < cfg0.N) (acc : Vec Ideal S32x128 .f32) :
    scAt0_0 m c n hb acc
      = step (pblk m c ⟨n, hb⟩) (cblk m c ⟨n, hb⟩) (if n % 16 = 0 then cleared else acc) := by
  have hN : n < 128 := lt_of_lt_of_eq hb (N128)
  unfold scAt0_0
  by_cases h0 : n % 16 = 0
  · have h1 : ¬n % 16 = 15 := by omega
    rw [dif_pos h0, dif_neg h1, if_pos h0]
    exact acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))
  · rw [dif_neg h0, if_neg h0]
    by_cases h1 : n % 16 = 15
    · rw [dif_pos h1]
      exact acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc
    · rw [dif_neg h1]
      exact acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc

/-- THE ACCUMULATOR after tile `t`: the sum of the addends of its run's tiles up to `t`. -/
theorem acc_at (c : Dev nD) (t : Fin cfg0.N) (i : S32x128.Idx) :
    (outsAt0 m c t.val t.isLt).2 i = ∑ s ∈ Finset.range (t.val % 16 + 1), addend m c (16 * (t.val / 16) + s) i := by
  have hN : t.val < 128 := lt_of_lt_of_eq t.isLt (N128)
  rw [soutsAt0_0_eq m c t]
  have key := Pipeline.accAt_add_apply (N := cfg0.N)
    (fun n h => scAt0_0 m c n h (VS0_0.read (Elt Ideal) VS0_0.junk)) (scAt0_0 m c) (fun _ => (0 : EReal)) (addend m c)
    (16 * (t.val / 16)) 15
    (fun h i => by
      show scAt0_0 m c (16 * (t.val / 16)) h (VS0_0.read (Elt Ideal) VS0_0.junk) i = 0 + addend m c (16 * (t.val / 16)) i
      rw [scAt_eq m c _ h, if_pos (by omega)]
      refine (tile_step m c ⟨16 * (t.val / 16), h⟩ cleared i).trans ?_
      rw [cleared_apply])
    (fun n h acc i hlt hle => by
      rw [scAt_eq m c n h, if_neg (by omega)]
      exact tile_step m c ⟨n, h⟩ acc i)
  exact (key (t.val % 16) (by omega) _ i).trans (zero_add _)

/-- At a run's last tile the output block receives the accumulator. -/
theorem out_eq_acc (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm

/-- WHAT A RUN'S LAST TILE WRITES OUT is its block of the Gaussian sum. -/
theorem flushed_eq (c : Dev nD) (t : Fin cfg0.N) (hf : (cfg0.win 2).flush t = true) :
    (dats m 0 c).flushed 2 t = ((cfg0.win 2).blk t).view.read (Elt Ideal) (G (clouds m c) (centres m c)) := by
  have hN : t.val < 128 := lt_of_lt_of_eq t.isLt (N128)
  have h1 : t.val % 16 = 15 := (flush0_2 t).mp hf
  have h0 : ¬t.val % 16 = 0 := by omega
  rw [flushed2, out_eq_acc m c t h0 h1]
  obtain ⟨e0, e1⟩ := resultIdx t
  funext j
  show (outsAt0 m c t.val t.isLt).2 j = G (clouds m c) (centres m c) (((cfg0.win 2).blk t).view.emb j)
  rw [acc_at m c t j, show t.val % 16 + 1 = 16 from by omega, Finset.sum_range]
  unfold G
  rw [sum_tiles]
  refine Finset.sum_congr rfl fun jj _ => ?_
  unfold addend tileSum
  refine Finset.sum_congr rfl fun l _ => ?_
  have hjj := jj.isLt; have hl := l.isLt
  have hj0 : (j 0).val < 32 := (j 0).isLt
  have hj1 : (j 1).val < 128 := (j 1).isLt
  refine weight_congr _ _ ?_ ?_ ?_
  · show (j 0).val = win0_2.index t 0 * 32 + 1 * (j 0).val
    rw [e0]; omega
  · show 128 * ((16 * (t.val / 16) + jj.val) / 16 % 8) + (j 1).val = win0_2.index t 1 * 128 + 1 * (j 1).val
    rw [e1]; omega
  · show 256 * ((16 * (t.val / 16) + jj.val) % 16) + l.val = 256 * jj.val + l.val
    omega

/-- An index of the result is in tile `t`'s block iff each coordinate is in the block's range on its axis. -/
theorem mem_blk (t : Fin cfg0.N) (i : S32x1024.Idx) :
    i ∈ ((cfg0.win 2).blk t).view.set ↔ ∀ a : Fin 2, win0_2.index t a * S32x128.size a ≤ (i a).val ∧ (i a).val < win0_2.index t a * S32x128.size a + S32x128.size a := by
  show i ∈ ((View.whole main_v2).slice (win0_2.rect t)).set ↔ _
  rw [View.set_slice_whole, Rect.mem_set_unit]
  exact Iff.rfl

/-- THE RESULT ARRAY after the run is the Gaussian sum: the 8 blocks written out cover it. -/
theorem final (c : Dev nD) : (dats m 0 c).arrAt 2 cfg0.N = G (clouds m c) (centres m c) :=
  (dats m 0 c).arrAt_eq_of_cover 2 (G (clouds m c) (centres m c)) (fun t hf => flushed_eq m c t hf) (fun i => by
    have hi0 : (i 0).val < 32 := (i 0).isLt
    have hi1 : (i 1).val < 1024 := (i 1).isLt
    have ht : 16 * ((i 1).val / 128) + 15 < cfg0.N := lt_of_lt_of_eq (by omega) N128.symm
    refine ⟨⟨16 * ((i 1).val / 128) + 15, ht⟩, (flush0_2 _).mpr (by show (16 * ((i 1).val / 128) + 15) % 16 = 15; omega), ?_⟩
    rw [mem_blk]
    obtain ⟨e0, e1⟩ := resultIdx ⟨16 * ((i 1).val / 128) + 15, ht⟩
    intro a
    match a with
    | ⟨0, _⟩ =>
      show win0_2.index ⟨16 * ((i 1).val / 128) + 15, ht⟩ 0 * 32 ≤ (i 0).val ∧ (i 0).val < win0_2.index ⟨16 * ((i 1).val / 128) + 15, ht⟩ 0 * 32 + 32
      rw [e0]; omega
    | ⟨1, _⟩ =>
      show win0_2.index ⟨16 * ((i 1).val / 128) + 15, ht⟩ 1 * 128 ≤ (i 1).val ∧ (i 1).val < win0_2.index ⟨16 * ((i 1).val / 128) + 15, ht⟩ 1 * 128 + 128
      rw [e1]
      show (16 * ((i 1).val / 128) + 15) / 16 * 128 ≤ (i 1).val ∧ (i 1).val < (16 * ((i 1).val / 128) + 15) / 16 * 128 + 128
      omega)

/-- The run, read: the result array at the Gaussian sum of the arguments as launched, the arguments unchanged. -/
theorem run : θ_run defs (onTc (τ := τ) (main (F := Ideal))) ⟨m, fun _ => 0, ρ⟩ fun r => ∀ c : Dev nD,
      r.2.mem ((c : Thread nD τ).loc main_v2) = G (clouds m c) (centres m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KernelValue

end
-- ==== Proof.RefSide.lean ====
/-
  The reference, read index by index, is the Gaussian sum.

  The reference expands the square: per (cloud b, centre q, point n) it forms the point's squared norm
  (a sum over the three coordinates from zero), subtracts twice the inner product of centre and point, adds the
  centre's squared norm, scales by `-1/2`, exponentiates, and sums over the 4096 points from zero. For arrays
  with real entries the expanded square is the squared distance taken coordinate by coordinate
  (`sqDist_eq_expanded`), so the result at (b, q) is the sum of the Gaussian weights.
-/
import proofs.«138815_j36773509989121_1_alg».proof.Proof.Gen.ReferenceIdeal.Read
import proofs.«138815_j36773509989121_1_alg».proof.Proof.GaussSum

noncomputable section

namespace Cert.ReferenceIdeal.RefSide

open Cert.ReferenceIdeal Cert.ReferenceIdeal.Read Cert.GaussSum
open Idealize.ShloMosaic Idealize.ShloMosaic.ValueIdx

/-- Coordinate `k` of point `n` of cloud `b`, as the squared norm's sum reaches it. -/
theorem idx_norm (b : Fin 32) (q : Fin 1024) (n : Fin 4096) (k : Fin 3) :
    idx_main_v1 (idx_main_v6 (idx_main_v9 (idx_main_v17 (ix2 b q) n))) k = ix3 b n k :=
  funext fun a => Fin.ext (by
    match a with
    | ⟨0, _⟩ => rfl
    | ⟨1, _⟩ => rfl
    | ⟨2, _⟩ => rfl)

/-- Coordinate `k` of centre `q`, as the inner product reaches it. -/
theorem idx_cross_l (b : Fin 32) (q : Fin 1024) (n : Fin 4096) (k : Fin 3) :
    lidx_main_v4 (idx_main_v5 (idx_main_v17 (ix2 b q) n)) k = ix2 q k :=
  funext fun a => Fin.ext (by
    match a with
    | ⟨0, _⟩ => rfl
    | ⟨1, _⟩ => rfl)

/-- Coordinate `k` of point `n` of cloud `b`, as the inner product reaches it. -/
theorem idx_cross_r (b : Fin 32) (q : Fin 1024) (n : Fin 4096) (k : Fin 3) :
    ridx_main_v4 (idx_main_v5 (idx_main_v17 (ix2 b q) n)) k = ix3 b n k :=
  funext fun a => Fin.ext (by
    match a with
    | ⟨0, _⟩ => rfl
    | ⟨1, _⟩ => rfl
    | ⟨2, _⟩ => rfl)

/-- Coordinate `k` of centre `q`, as the centre's squared norm reaches it. -/
theorem idx_cnorm (b : Fin 32) (q : Fin 1024) (n : Fin 4096) (k : Fin 3) :
    idx_main_v3 (idx_main_v11 (idx_main_v12 (idx_main_v17 (ix2 b q) n))) k = ix2 q k :=
  funext fun a => Fin.ext (by
    match a with
    | ⟨0, _⟩ => rfl
    | ⟨1, _⟩ => rfl)

/-- For clouds and centres with real entries the reference's result is the Gaussian sum. -/
theorem ref_eq_G (x : SX.Idx → EReal) (s : SS.Idx → EReal) (hx : AllReal x) (hs : AllReal s) :
    val_main_v17 (F := Ideal) x s = G x s := by
  funext i
  obtain ⟨b, q, rfl⟩ : ∃ (b : Fin 32) (q : Fin 1024), i = ix2 b q := ⟨i 0, i 1, eq_ix2 i⟩
  rw [val_main_v17_apply, val_main_cst_3_apply, Ideal.ofBits_def, Ideal.ofBits_zero_f32, zero_add]
  unfold G
  refine Finset.sum_congr rfl fun n _ => ?_
  rw [val_main_v16_apply, val_main_v15_apply, val_main_v14_apply, val_main_cst_2_apply, val_main_v13_apply,
    val_main_v10_apply, val_main_v9_apply, val_main_v6_apply, val_main_v1_apply, val_main_cst_apply,
    val_main_v8_apply, val_main_v7_apply, val_main_cst_1_apply, val_main_v5_apply, val_main_v4_apply,
    val_main_v12_apply, val_main_v11_apply, val_main_v3_apply, val_main_cst_0_apply]
  simp only [val_main_v0_apply, val_main_v2_apply, idx_norm, idx_cross_l, idx_cross_r, idx_cnorm,
    Ideal.hostUnary_exp_def, Ideal.mulf_def, Ideal.addf_def, Ideal.subf_def, Ideal.ofBits_def, Ideal.ofBits_zero_f32]
  show _ = Ideal.exp (negHalf * sqDist x s b q n)
  rw [sqDist_eq_expanded x s hx hs b q n]

end Cert.ReferenceIdeal.RefSide

end
-- ==== Proof.Finite.lean ====
/-
  The precondition says every entry of both arguments is a real number.

  The printed predicate compares the absolute value of every entry with `+∞`, takes the conjunction over each
  array, and joins the two. Over the extended reals an entry whose absolute value is below `+∞` is neither
  infinity, so it is a real number: this is what lets the square of a difference be expanded.
-/
import proofs.«138815_j36773509989121_1_alg».proof.Pre_finite_inputs
import proofs.«138815_j36773509989121_1_alg».proof.Proof.GaussSum
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Cert.GaussSum Idealize.ShloMosaic Idealize.ShloMosaic.ValueIdx

/-- The pattern `0x7F800000` denotes `+∞`. -/
theorem ofBits_inf : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The scalar shape has one index. -/
instance : Subsingleton S_.Idx := ⟨fun a b => funext fun d => d.elim0⟩

/-- A comparison "less than `+∞`" of an absolute value that came out true says the entry is real. -/
theorem real_of_cmp (v : EReal) (e : BitVec.ofBool (decide (max v (-v) < Ideal.ofBits .f32 0x7F800000#32)) = 1#1) :
    ∃ r : ℝ, v = (r : EReal) := by
  rw [ofBits_inf] at e
  by_cases hlt : max v (-v) < ⊤
  · exact real_of_abs_lt_top v hlt
  · rw [decide_eq_false hlt] at e
    exact absurd e (by decide)

/-- Where the precondition holds, the clouds and the centres have real entries. -/
theorem allReal_of_pre [Cert.Pre_finite_inputs.Facts] (x : FVec Ideal S32x4096x3 .f32) (s : FVec Ideal S1024x3 .f32)
    (h : fn (F := Ideal) x s = fun _ => 1#1) : AllReal (S := SX) x ∧ AllReal (S := SS) s := by
  have h0 := congrFun h ix0
  dsimp only [fn] at h0
  obtain ⟨hA, hB⟩ := IntOp.andi_eq_one.1 h0
  refine ⟨fun i => ?_, fun i => ?_⟩
  · exact real_of_cmp (x i) (Host.reduce_andi_all _ _ _ _ _ hA i)
  · exact real_of_cmp (s i) (Host.reduce_andi_all _ _ _ _ _ hB i)

end Cert.Pre_finite_inputs.Finite

end
-- ==== Proof.lean ====
/-
  A Gaussian kernel sum over point clouds, tiled, against its expanded-square reference.

  For 32 clouds of 4096 points in three coordinates and 1024 centres, the result at (cloud b, centre q) is
  `Σₙ exp (-1/2 · |x b n − s q|²)`.

  The kernel lays clouds and centres out coordinate-major, walks an 8 × 16 grid of tiles (128 centres by 256
  points), forms on each tile the squared distance as the three squared coordinate differences added left to
  right, exponentiates, sums over the tile's points, and accumulates over the 16 point-blocks of a run into a
  buffer cleared at the run's first tile and written out at its last. Over the extended reals its result array
  is the Gaussian sum `G` exactly, for any inputs: regrouping a sum needs no finiteness
  (Proof/KernelValue.lean, over Proof/CasePieces.lean, Proof/TileStep.lean, Proof/TileLayout.lean and
  Proof/InputBlocks.lean).

  The reference expands the square, `|x|² − 2·(s·x) + |s|²`, before scaling, exponentiating and summing over all
  4096 points at once. The expansion distributes a product over a difference, which fails at an infinity of the
  extended reals; under the precondition every entry is a real number (Proof/Finite.lean), the expansion holds
  (Proof/GaussSum.lean `sqDist_expand`), and the reference's result is `G` too (Proof/RefSide.lean).

  The three frames: the two kernel programs' are the generated frame certificates; the reference has no kernel, and
  its frame is its run with the result dropped. The idealization rewrote nothing, so `preserves` is `True`.
-/
import proofs.«138815_j36773509989121_1_alg».proof.Defs
import proofs.«138815_j36773509989121_1_alg».proof.Proof.Gen.Kernel
import proofs.«138815_j36773509989121_1_alg».proof.Proof.Gen.Kernel.Skeleton
import proofs.«138815_j36773509989121_1_alg».proof.Proof.Gen.Kernel.Launch
import proofs.«138815_j36773509989121_1_alg».proof.Proof.Gen.Kernel.Points
import proofs.«138815_j36773509989121_1_alg».proof.Proof.Gen.Kernel.Frame
import proofs.«138815_j36773509989121_1_alg».proof.Proof.Gen.KernelIdeal
import proofs.«138815_j36773509989121_1_alg».proof.Proof.Gen.KernelIdeal.Skeleton
import proofs.«138815_j36773509989121_1_alg».proof.Proof.Gen.KernelIdeal.Launch
import proofs.«138815_j36773509989121_1_alg».proof.Proof.Gen.KernelIdeal.Points
import proofs.«138815_j36773509989121_1_alg».proof.Proof.Gen.KernelIdeal.Frame
import proofs.«138815_j36773509989121_1_alg».proof.Proof.Gen.ReferenceIdeal
import proofs.«138815_j36773509989121_1_alg».proof.Proof.Gen.Pre_finite_inputs
import proofs.«138815_j36773509989121_1_alg».proof.Proof.Gen.KernelIdeal.Value
import proofs.«138815_j36773509989121_1_alg».proof.Proof.Gen.ReferenceIdeal.Run
import proofs.«138815_j36773509989121_1_alg».proof.Proof.Gen.ReferenceIdeal.Read
import proofs.«138815_j36773509989121_1_alg».proof.Proof.KernelValue
import proofs.«138815_j36773509989121_1_alg».proof.Proof.RefSide
import proofs.«138815_j36773509989121_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on clouds and centres, all entries real, both programs end with the Gaussian sum:
    the kernel's tiles add up to it whatever the entries, and the reference's expanded square is the squared
    distance because the entries are real. -/
theorem algebraic : Cert.algebraic_KernelIdeal_ReferenceIdeal := by
  intro m ρ m' ρ' hpre hagree
  refine ⟨fun c => Cert.GaussSum.G (Cert.KernelIdeal.KernelValue.clouds m c) (Cert.KernelIdeal.KernelValue.centres m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _).trans ?_
  rw [(hagree c).1, (hagree c).2]
  obtain ⟨hx, hs⟩ := Cert.Pre_finite_inputs.Finite.allReal_of_pre _ _ (hpre c)
  exact Cert.ReferenceIdeal.RefSide.ref_eq_G _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
